-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S1x1024x3 : Shape := ⟨3, ![1, 1024, 3]⟩
abbrev S1x1024x1 : Shape := ⟨3, ![1, 1024, 1]⟩
abbrev S1x1x1024 : Shape := ⟨3, ![1, 1, 1024]⟩
abbrev S1024x1 : Shape := ⟨2, ![1024, 1]⟩
abbrev S1024x3 : Shape := ⟨2, ![1024, 3]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 31
  | .vmem => 20
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x8192x1, .f32⟩
  | .hbm, ⟨11, _⟩ => ⟨S4x8192, .f32⟩
  | .hbm, ⟨12, _⟩ => ⟨S4x8192x3, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x3, .f32⟩
  | .hbm, ⟨17, _⟩ => ⟨S_, .f32⟩
  | .hbm, ⟨18, _⟩ => ⟨S4x8192, .f32⟩
  | .hbm, ⟨19, _⟩ => ⟨S4x1x8192, .f32⟩
  | .hbm, ⟨20, _⟩ => ⟨S4x8192x1, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x3, .f32⟩
  | .local _ .vmem, ⟨11, _⟩ => ⟨S1x1024x3, .f32⟩
  | .local _ .vmem, ⟨12, _⟩ => ⟨S1x1024x3, .f32⟩
  | .local _ .vmem, ⟨13, _⟩ => ⟨S1x1024x3, .f32⟩
  | .local _ .vmem, ⟨14, _⟩ => ⟨S1x1024x1, .f32⟩
  | .local _ .vmem, ⟨15, _⟩ => ⟨S1x1024x1, .f32⟩
  | .local _ .vmem, ⟨16, _⟩ => ⟨S1x1x1024, .f32⟩
  | .local _ .vmem, ⟨17, _⟩ => ⟨S1x1x1024, .f32⟩
  | .local _ .vmem, ⟨18, _⟩ => ⟨S1x1024x1, .f32⟩
  | .local _ .vmem, ⟨19, _⟩ => ⟨S1x1024x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S4x8192x1_S4x8192 : S4x8192x1.ShapeCasts S4x8192
  reducesTo_S4x8192_S_d0_1 : S4x8192.ReducesTo [0, 1] S_
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x8192.size a
  hwx0_3 : ∀ i : grid0.Coords, EltTy.bits .f32 = 32 ∨ (Rect.block (s := S4x1x8192) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S4x8192x1.size a
  hwx0_4 : ∀ i : grid0.Coords, EltTy.bits .f32 = 32 ∨ (Rect.block (s := S4x8192x1) S1x1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S4x8192x3.size a
  hwx1_0 : ∀ i : grid1.Coords, EltTy.bits .f32 = 32 ∨ (Rect.block (s := S4x8192x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S4x8192x3.size a
  hwx1_1 : ∀ i : grid1.Coords, EltTy.bits .f32 = 32 ∨ (Rect.block (s := S4x8192x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S4x8192x1.size a
  hwx1_2 : ∀ i : grid1.Coords, EltTy.bits .f32 = 32 ∨ (Rect.block (s := S4x8192x1) S1x1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S4x1x8192.size a
  hwx1_3 : ∀ i : grid1.Coords, EltTy.bits .f32 = 32 ∨ (Rect.block (s := S4x1x8192) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S4x8192x1.size a
  hwx1_4 : ∀ i : grid1.Coords, EltTy.bits .f32 = 32 ∨ (Rect.block (s := S4x8192x1) S1x1024x1.size (cc1_transform_4 i) (hinb1_4 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.ChamferSpec.lean ====
/-
  The mathematics both programs compute, stated once over the extended reals.

  Two clouds of 8192 points in three coordinates, four batches. For a point `n` of one cloud and a point `m` of the
  other, the distance is `sqrt (max ((|x_n|^2 + |y_m|^2) - 2 * <x_n, y_m>) 0)`, the squared norms handed in as two
  further arrays (a column `P` for the first cloud, a row `Q` for the second). `nearest` is, for every point of the
  first cloud, the least such distance over the second: the fold of `min` from the top element. A fold of `min` from
  the top element is characterised by its lower bounds (`le_minOver_iff`), and everything below is proved through that
  characterisation, never through the order in which a fold visits its indices.

  Three laws:
  * `prefixMin_tile`: the least value over the first `(j + 1) * 1024` indices is the `min` of the least value over the
    first `j * 1024` and the least value over the next 1024 (a running minimum taken tile by tile is the minimum);
  * `dist_swap`: exchanging the two clouds, with the norm arrays exchanged accordingly, gives the same distance
    (commutativity of `+` and of `*` on the extended reals: no finiteness is needed);
  * `tdist` is `dist` read inside one 1024 by 1024 tile.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- A cloud: batch, point, coordinate. -/
abbrev Pts : Shape := ⟨3, ![4, 8192, 3]⟩
/-- One number per point, as a column. -/
abbrev Col : Shape := ⟨3, ![4, 8192, 1]⟩
/-- One number per point, as a row. -/
abbrev Row : Shape := ⟨3, ![4, 1, 8192]⟩
/-- One number per point. -/
abbrev Flat : Shape := ⟨2, ![4, 8192]⟩
/-- A tile of 1024 points of a cloud. -/
abbrev TPts : Shape := ⟨3, ![1, 1024, 3]⟩
/-- A tile of a column. -/
abbrev TCol : Shape := ⟨3, ![1, 1024, 1]⟩
/-- A tile of a row. -/
abbrev TRow : Shape := ⟨3, ![1, 1, 1024]⟩

/-! ## The least value of finitely many extended reals -/

/-- The least of `f 0, …, f (n - 1)`, the top element when there are none. -/
def minOver {n : Nat} (f : Fin n → EReal) : EReal := (Finset.univ : Finset (Fin n)).fold min ⊤ f

/-- Its lower bounds are the common lower bounds of the values. -/
theorem le_minOver_iff {n : Nat} (f : Fin n → EReal) (z : EReal) : z ≤ minOver f ↔ ∀ k, z ≤ f k := by
  unfold minOver
  rw [Finset.le_fold_min]
  exact ⟨fun h k => h.2 k (Finset.mem_univ k), fun h => ⟨le_top, fun k _ => h k⟩⟩

/-- The least of the values at the indices below `k`. -/
def prefixMin {n : Nat} (f : Fin n → EReal) (k : Nat) : EReal :=
  (Finset.univ.filter fun m : Fin n => m.val < k).fold min ⊤ f

theorem le_prefixMin_iff {n : Nat} (f : Fin n → EReal) (k : Nat) (z : EReal) :
    z ≤ prefixMin f k ↔ ∀ m : Fin n, m.val < k → z ≤ f m := by
  unfold prefixMin
  rw [Finset.le_fold_min]
  refine ⟨fun h m hm => h.2 m (Finset.mem_filter.mpr ⟨Finset.mem_univ m, hm⟩), fun h => ⟨le_top, fun m hm => ?_⟩⟩
  exact h m (Finset.mem_filter.mp hm).2

/-- Over every index it is `minOver`. -/
theorem prefixMin_full {n : Nat} (f : Fin n → EReal) : prefixMin f n = minOver f :=
  eq_of_forall_le_iff fun z => by
    rw [le_prefixMin_iff, le_minOver_iff]
    exact ⟨fun h m => h m m.isLt, fun h m _ => h m⟩

/-- A running minimum taken tile by tile: the first `j + 1` tiles of 1024 are the first `j` and the next one. -/
theorem prefixMin_tile (f : Fin 8192 → EReal) (j : Nat) (hj : j < 8) :
    prefixMin f ((j + 1) * 1024)
      = min (prefixMin f (j * 1024)) (minOver fun l : Fin 1024 => f ⟨j * 1024 + l.val, by have := l.isLt; omega⟩) :=
  eq_of_forall_le_iff fun z => by
    rw [le_min_iff, le_prefixMin_iff, le_prefixMin_iff, le_minOver_iff]
    constructor
    · intro h
      exact ⟨fun m hm => h m (by omega), fun l => h _ (by have := l.isLt; show j * 1024 + l.val < _; omega)⟩
    · rintro ⟨h1, h2⟩ m hm
      by_cases hlt : m.val < j * 1024
      · exact h1 m hlt
      · have e : m = ⟨j * 1024 + (m.val - j * 1024), by have := m.isLt; omega⟩ := Fin.ext (by show m.val = j * 1024 + (m.val - j * 1024); omega)
        rw [e]
        exact h2 ⟨m.val - j * 1024, by omega⟩

/-- The first tile alone: the running minimum started from the top element. -/
theorem prefixMin_first (f : Fin 8192 → EReal) :
    prefixMin f 1024 = min ⊤ (minOver fun l : Fin 1024 => f ⟨l.val, by have := l.isLt; omega⟩) :=
  eq_of_forall_le_iff fun z => by
    rw [le_min_iff, le_prefixMin_iff, le_minOver_iff]
    constructor
    · intro h
      exact ⟨le_top, fun l => h _ l.isLt⟩
    · rintro ⟨-, h2⟩ m hm
      exact h2 ⟨m.val, hm⟩

/-! ## The distance -/

/-- The constant `2` of both programs, as the pattern they print. -/
abbrev two : EReal := Ideal.ofBits .f32 0x40000000#32
/-- The constant `0` both programs clamp against, as the pattern they print. -/
abbrev zero : EReal := Ideal.ofBits .f32 0x00000000#32

/-- From the two squared norms `p`, `q` and the inner product `s`: `sqrt (max ((p + q) - 2 * s) 0)`. -/
def gap (p q s : EReal) : EReal := Ideal.sqrt (max ((p + q) - two * s) zero)

/-- The squared norms enter symmetrically. -/
theorem gap_comm (p q s : EReal) : gap q p s = gap p q s := by unfold gap; rw [add_comm]

/-- The distance from point `n` of the cloud `X` to point `m` of the cloud `Y` in batch `b`. -/
def dist (X Y : Pts.Idx → EReal) (P : Col.Idx → EReal) (Q : Row.Idx → EReal) (b : Fin 4) (n m : Fin 8192) : EReal :=
  gap (P (ix3 b n 0)) (Q (ix3 b 0 m)) (∑ d : Fin 3, X (ix3 b n d) * Y (ix3 b m d))

/-- For every point of `X`, the distance to its nearest point of `Y`. -/
def nearest (X Y : Pts.Idx → EReal) (P : Col.Idx → EReal) (Q : Row.Idx → EReal) : Col.Idx → EReal :=
  fun i => minOver fun m => dist X Y P Q ⟨(i 0).val, (i 0).isLt⟩ ⟨(i 1).val, (i 1).isLt⟩ m

theorem nearest_apply (X Y : Pts.Idx → EReal) (P : Col.Idx → EReal) (Q : Row.Idx → EReal) (b : Fin 4) (n : Fin 8192)
    (z : Fin 1) : nearest X Y P Q (ix3 b n z) = minOver fun m => dist X Y P Q b n m := rfl

/-- Exchanging the clouds, the column of one being the row of the other, leaves the distance as it is. -/
theorem dist_swap (X Y : Pts.Idx → EReal) (P P' : Col.Idx → EReal) (Q Q' : Row.Idx → EReal) (b : Fin 4) (n m : Fin 8192)
    (hP : P' (ix3 b m 0) = Q (ix3 b 0 m)) (hQ : Q' (ix3 b 0 n) = P (ix3 b n 0)) :
    dist Y X P' Q' b m n = dist X Y P Q b n m := by
  unfold dist
  rw [hP, hQ, gap_comm]
  exact congrArg _ (Finset.sum_congr rfl fun d _ => mul_comm _ _)

/-- The same distance inside one tile: row `r` of a tile of the first cloud against row `l` of a tile of the second. -/
def tdist (x0 x1 : TPts.Idx → EReal) (x2 : TCol.Idx → EReal) (x3 : TRow.Idx → EReal) (r l : Fin 1024) : EReal :=
  gap (x2 (ix3 0 r 0)) (x3 (ix3 0 0 l)) (∑ d : Fin 3, x0 (ix3 0 r d) * x1 (ix3 0 l d))

/-- A column read as one number per point. -/
def flat (O : Col.Idx → EReal) : Flat.Idx → EReal :=
  fun j => O (ix3 ⟨(j 0).val, (j 0).isLt⟩ ⟨(j 1).val, (j 1).isLt⟩ 0)

theorem flat_apply (O : Col.Idx → EReal) (b : Fin 4) (n : Fin 8192) : flat O (ix2 b n) = O (ix3 b n 0) := rfl

end Cert.Chamfer

end
-- ==== Proof.RefValue.lean ====
/-
  The reference's two minima are `nearest`, once as it stands and once with the clouds exchanged.
-/
import proofs.«141910_j40939628265652_1_alg».proof.Proof.Gen.ReferenceIdeal.Read
import proofs.«141910_j40939628265652_1_alg».proof.Proof.ChamferSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The pattern both reductions start from is the top element: the least value of no numbers. -/
private theorem inf_eq_top : Ideal.ofBits .f32 0x7F800000#32 = (⊤ : EReal) := by
  simp [Ideal.ofBits, Ideal.ieee]

/-- The distance array read at `(b, n, m)`: the distance from point `n` of the first cloud to point `m` of the second,
    the squared norms being the column and the row the reference broadcasts. -/
private theorem dist_at (x0 x1 : (⟨S4x8192x3, .f32⟩ : BufTy).Contents (Elt Ideal)) (b : Fin 4) (n m : Fin 8192) :
    val_main_v15 (F := Ideal) x0 x1 (ix3 b n m)
      = Chamfer.dist x0 x1 (val_main_v5 (F := Ideal) x0) (val_main_v6 (F := Ideal) x1) b n m := by
  have e7 : idx_main_v7 (ix3 b n m) = ix3 b n 0 :=
    funext fun a => Fin.ext (by match a with | ⟨0, _⟩ => rfl | ⟨1, _⟩ => rfl | ⟨2, _⟩ => rfl)
  have e8 : idx_main_v8 (ix3 b n m) = ix3 b 0 m :=
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v15_apply, val_main_v14_apply, val_main_v12_apply, val_main_v9_apply, val_main_v7_apply, val_main_v8_apply,
    val_main_v11_apply, val_main_v10_apply, val_main_v13_apply, val_main_v4_apply, val_main_cst_1_apply, val_main_cst_2_apply,
    e7, e8]
  simp only [el, er, Ideal.hostUnary_sqrt_def, Ideal.maximumf_def, Ideal.subf_def, Ideal.addf_def, Ideal.mulf_def, Ideal.ofBits_def]
  rfl

/-- A fold of the minimum from the top element over a family is `minOver` of any family equal to it pointwise. -/
private theorem fold_min_eq_minOver (g f : Fin 8192 → EReal) (c : EReal) (hc : c = ⊤) (h : ∀ m, g m = f m) :
    (Finset.univ : Finset (Fin 8192)).fold (FloatOps.minimumf (F := Ideal) (φ := .f32)) c g = Chamfer.minOver f := by
  subst hc
  obtain rfl : g = f := funext h
  rfl

/-- The minimum over the second cloud, per point of the first. -/
theorem rowMin_eq (x0 x1 : (⟨S4x8192x3, .f32⟩ : BufTy).Contents (Elt Ideal)) :
    val_main_v16 (F := Ideal) x0 x1
      = Chamfer.flat (Chamfer.nearest x0 x1 (val_main_v5 (F := Ideal) x0) (val_main_v6 (F := Ideal) x1)) := by
  funext j
  obtain ⟨b, n, rfl⟩ : ∃ (b : Fin 4) (n : Fin 8192), j = ix2 b n := ⟨j 0, j 1, eq_ix2 j⟩
  rw [Chamfer.flat_apply, Chamfer.nearest_apply]
  have hpt := dist_at x0 x1 b n
  unfold val_main_v16
  generalize val_main_v15 (F := Ideal) x0 x1 = y at hpt ⊢
  -- the reduce over the last axis, at (b, n), is the fold over m of the array at (b, n, m)
  refine (Host.reduce_eq_fold_single (FloatOps.minimumf (F := Ideal) (φ := .f32)) y _ reducesTo_S4x8192x8192_S4x8192_d2
    (by decide) h_S_ (ix2 b n)).trans ?_
  refine fold_min_eq_minOver _ _ _ ((val_main_cst_3_apply _).trans inf_eq_top) fun m => ?_
  refine Eq.trans ?_ (hpt m)
  exact congrArg y (funext fun a => Fin.ext (by match a with | ⟨0, _⟩ => rfl | ⟨1, _⟩ => rfl | ⟨2, _⟩ => rfl))

/-- One number per point broadcast to a column, read at `(b, m, 0)`. -/
private theorem col_at (y : (⟨S4x8192, .f32⟩ : BufTy).Contents (Elt Ideal)) (b : Fin 4) (m : Fin 8192) :
    broadcastInDim S4x8192x1 ![0, 1] bcast_S4x8192_S4x8192x1_0_1 y (ix3 b m 0) = y (ix2 b m) :=
  broadcastInDim_apply _ bcast_S4x8192_S4x8192x1_0_1 y (ix3 b m 0) (ix2 b m) fun a => by
    match a with
    | ⟨0, _⟩ => exact (if_neg (show ¬ (4 : Nat) = 1 by decide)).symm
    | ⟨1, _⟩ => exact (if_neg (show ¬ (8192 : Nat) = 1 by decide)).symm

/-- One number per point broadcast to a row, read at `(b, 0, n)`. -/
private theorem row_at (y : (⟨S4x8192, .f32⟩ : BufTy).Contents (Elt Ideal)) (b : Fin 4) (n : Fin 8192) :
    broadcastInDim S4x1x8192 ![0, 2] bcast_S4x8192_S4x1x8192_0_2 y (ix3 b 0 n) = y (ix2 b n) :=
  broadcastInDim_apply _ bcast_S4x8192_S4x1x8192_0_2 y (ix3 b 0 n) (ix2 b n) fun a => by
    match a with
    | ⟨0, _⟩ => exact (if_neg (show ¬ (4 : Nat) = 1 by decide)).symm
    | ⟨1, _⟩ => exact (if_neg (show ¬ (8192 : Nat) = 1 by decide)).symm

/-- The same entry of the distance array seen from the second cloud: the distance from its point `m` to point `n` of
    the first, the second cloud's squared norms as the column and the first's as the row. -/
private theorem dist_at_swap (x0 x1 : (⟨S4x8192x3, .f32⟩ : BufTy).Contents (Elt Ideal)) (b : Fin 4) (n m : Fin 8192) :
    val_main_v15 (F := Ideal) x0 x1 (ix3 b n m)
      = Chamfer.dist x1 x0
          (broadcastInDim S4x8192x1 ![0, 1] bcast_S4x8192_S4x8192x1_0_1 (val_main_v3 (F := Ideal) x1))
          (broadcastInDim S4x1x8192 ![0, 2] bcast_S4x8192_S4x1x8192_0_2 (val_main_v1 (F := Ideal) x0)) b m n := by
  rw [dist_at]
  refine (Chamfer.dist_swap x0 x1 _ _ _ _ b n m ?_ ?_).symm
  · -- the second cloud's norm at point m, as a column entry and as the reference's row entry
    rw [col_at, val_main_v6_apply]
    exact congrArg _ (funext fun a => Fin.ext (by match a with | ⟨0, _⟩ => rfl | ⟨1, _⟩ => rfl))
  · -- the first cloud's norm at point n, as a row entry and as the reference's column entry
    rw [row_at, val_main_v5_apply]
    exact congrArg _ (funext fun a => Fin.ext (by match a with | ⟨0, _⟩ => rfl | ⟨1, _⟩ => rfl))

/-- The minimum over the first cloud, per point of the second: `nearest` with the clouds exchanged, the squared norms
    of the second as the column and of the first as the row. -/
theorem colMin_eq (x0 x1 : (⟨S4x8192x3, .f32⟩ : BufTy).Contents (Elt Ideal)) :
    val_main_v17 (F := Ideal) x0 x1
      = Chamfer.flat (Chamfer.nearest x1 x0
          (broadcastInDim S4x8192x1 ![0, 1] bcast_S4x8192_S4x8192x1_0_1 (val_main_v3 (F := Ideal) x1))
          (broadcastInDim S4x1x8192 ![0, 2] bcast_S4x8192_S4x1x8192_0_2 (val_main_v1 (F := Ideal) x0))) := by
  funext j
  obtain ⟨b, m, rfl⟩ : ∃ (b : Fin 4) (m : Fin 8192), j = ix2 b m := ⟨j 0, j 1, eq_ix2 j⟩
  rw [Chamfer.flat_apply, Chamfer.nearest_apply]
  have hpt := fun n => dist_at_swap x0 x1 b n m
  unfold val_main_v17
  generalize val_main_v15 (F := Ideal) x0 x1 = y at hpt ⊢
  -- the reduce over the middle axis, at (b, m), is the fold over n of the array at (b, n, m)
  refine (Host.reduce_eq_fold_single (FloatOps.minimumf (F := Ideal) (φ := .f32)) y _ reducesTo_S4x8192x8192_S4x8192_d1
    (by decide) h_S_ (ix2 b m)).trans ?_
  refine fold_min_eq_minOver _ _ _ ((val_main_cst_4_apply _).trans inf_eq_top) fun n => ?_
  refine Eq.trans ?_ (hpt n)
  exact congrArg y (funext fun a => Fin.ext (by match a with | ⟨0, _⟩ => rfl | ⟨1, _⟩ => rfl | ⟨2, _⟩ => rfl))

end Cert.ReferenceIdeal.RefValue

end
-- ==== Proof.Pieces0.lean ====
/-
  What each control case of the first call's body leaves in the output block, as the body's arithmetic.
-/
import proofs.«141910_j40939628265652_1_alg».proof.Proof.Gen.KernelIdeal.Frame
import Idealize.ShloMosaic.Lib.Pipeline.Value
import Idealize.ShloMosaic.Lib.Tactic

noncomputable section

namespace Cert.KernelIdeal.Region0

open Cert.KernelIdeal Cert.KernelIdeal.Gen Idealize.ShloMosaic Idealize.ShloMosaic.TcCoe Idealize.SL.Sem

variable {F : FTy → Type} [FloatOps F]

/-- The all-zero offset of a rank-3 block, as the constant function. -/
private theorem hz : (![0, 0, 0] : Fin 3 → Nat) = fun _ => 0 := funext fun a => by fin_cases a <;> rfl

/-- At the first step along the reduction axis the body resets the block and then updates it: the update of the reset block. -/
theorem outA_eq (c : Dev nD) (i : grid0.Coords) (arg3 : Memref sig .tc .vmem S1x1024x3 .f32) (harg3 : arg3.IsWhole)
    (arg4 : Memref sig .tc .vmem S1x1024x3 .f32) (harg4 : arg4.IsWhole) (arg5 : Memref sig .tc .vmem S1x1024x1 .f32) (harg5 : arg5.IsWhole)
    (arg6 : Memref sig .tc .vmem S1x1x1024 .f32) (harg6 : arg6.IsWhole) (arg7 : Memref sig .tc .vmem S1x1024x1 .f32) (harg7 : arg7.IsWhole)
    (hc0 : cond0_0 i) (x0 : Vec F S1x1024x3 .f32) (x1 : Vec F S1x1024x3 .f32) (x2 : Vec F S1x1024x1 .f32) (x3 : Vec F S1x1x1024 .f32) :
    out0_A_4 c i arg3 harg3 arg4 harg4 arg5 harg5 arg6 harg6 arg7 harg7 hc0 x0 x1 x2 x3
      = k0_pay2 x0 x1 x2 x3 (k0_pay1 (F := F)) := by
  unfold out0_A_4
  rw [View.read_writes_eq_canon _ _ _ (cover0_A_4 c i arg3 harg3 arg4 harg4 arg5 harg5 arg6 harg6 arg7 harg7 hc0 x0 x1 x2 x3)]
  unfold kernelRun0_A
  dsimp only
  sl_unfold_words
  rw [View.canon_cons_unit_zero (S := S1x1024x1) hz, View.readCov_unit_zero (S := S1x1024x1) _ hz]
  simp only [View.readAt_eq_ld, harg3.read_unread, harg4.read_unread, harg5.read_unread, harg6.read_unread,
    View.ld_unit_zero (S := S1x1024x3) hz, View.ld_unit_zero (S := S1x1024x1) hz, View.ld_unit_zero (S := S1x1x1024) hz]

/-- At every later step the body updates the block it finds. -/
theorem outB_eq (c : Dev nD) (i : grid0.Coords) (arg3 : Memref sig .tc .vmem S1x1024x3 .f32) (harg3 : arg3.IsWhole)
    (arg4 : Memref sig .tc .vmem S1x1024x3 .f32) (harg4 : arg4.IsWhole) (arg5 : Memref sig .tc .vmem S1x1024x1 .f32) (harg5 : arg5.IsWhole)
    (arg6 : Memref sig .tc .vmem S1x1x1024 .f32) (harg6 : arg6.IsWhole) (arg7 : Memref sig .tc .vmem S1x1024x1 .f32) (harg7 : arg7.IsWhole)
    (hc0 : ¬cond0_0 i) (x0 : Vec F S1x1024x3 .f32) (x1 : Vec F S1x1024x3 .f32) (x2 : Vec F S1x1024x1 .f32) (x3 : Vec F S1x1x1024 .f32)
    (xo4 : Vec F S1x1024x1 .f32) :
    out0_B_4 c i arg3 harg3 arg4 harg4 arg5 harg5 arg6 harg6 arg7 harg7 hc0 x0 x1 x2 x3 xo4
      = k0_pay2 x0 x1 x2 x3 xo4 := by
  unfold out0_B_4
  rw [View.read_writes_eq_canon _ _ _ (cover0_B_4 c i arg3 harg3 arg4 harg4 arg5 harg5 arg6 harg6 arg7 harg7 hc0 x0 x1 x2 x3 xo4)]
  unfold kernelRun0_B
  dsimp only
  sl_unfold_words
  rw [View.canon_unit_zero hz]
  simp only [View.readAt_eq_ld, harg3.read_unread, harg4.read_unread, harg5.read_unread, harg6.read_unread, harg7.read_unread,
    View.ld_unit_zero (S := S1x1024x3) hz, View.ld_unit_zero (S := S1x1024x1) hz, View.ld_unit_zero (S := S1x1x1024) hz]

end Cert.KernelIdeal.Region0

end
-- ==== Proof.Blocks0.lean ====
/-
  The first call's windows: the block a grid point sees is the entry array read at explicit coordinates.
  Grid point `t` of the 4 x 8 x 8 grid is batch `t / 64`, row tile `t / 8 % 8`, column tile `t % 8`.
-/
import proofs.«141910_j40939628265652_1_alg».proof.Proof.Gen.KernelIdeal.Frame
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- The batch of grid point `t`. -/
def batchOf (t : Nat) (ht : t < 256) : Fin 4 := ⟨t / 64, by omega⟩
/-- Row `r` of the row tile of grid point `t`, as a point of the first cloud. -/
def rowOf (t : Nat) (r : Fin 1024) : Fin 8192 := ⟨(t / 8 % 8) * 1024 + r.val, by have := r.isLt; omega⟩
/-- Row `l` of the column tile of grid point `t`, as a point of the second cloud. -/
def colOf (t : Nat) (l : Fin 1024) : Fin 8192 := ⟨(t % 8) * 1024 + l.val, by have := l.isLt; omega⟩

theorem lt256 (t : Fin cfg0.N) : t.val < 256 := lt_of_lt_of_eq t.isLt (show cfg0.N = 256 from N_0)

/-! ## The block indices of the four input windows, decided once over the 256 grid points

  Each window's index map picks out of the grid coordinates `(b, i, j) = (t / 64, t / 8 % 8, t % 8)` the block it reads:
  the first cloud's windows follow the row tile `i`, the second cloud's the column tile `j`. -/

/-- Window 0 (the first cloud's points) reads block `(b, i, 0)`. -/
theorem idx0 : ∀ t : Fin cfg0.N, win0_0.index t (0 : Fin 3) = t.val / 64 ∧ win0_0.index t 1 = t.val / 8 % 8 ∧ win0_0.index t 2 = 0 :=
  (by decide +kernel : ∀ t : Fin grid0.N, _)

/-- Window 1 (the second cloud's points) reads block `(b, j, 0)`. -/
theorem idx1 : ∀ t : Fin cfg0.N, win0_1.index t (0 : Fin 3) = t.val / 64 ∧ win0_1.index t 1 = t.val % 8 ∧ win0_1.index t 2 = 0 :=
  (by decide +kernel : ∀ t : Fin grid0.N, _)

/-- Window 2 (the first cloud's squared norms, a column) reads block `(b, i, 0)`. -/
theorem idx2 : ∀ t : Fin cfg0.N, win0_2.index t (0 : Fin 3) = t.val / 64 ∧ win0_2.index t 1 = t.val / 8 % 8 ∧ win0_2.index t 2 = 0 :=
  (by decide +kernel : ∀ t : Fin grid0.N, _)

/-- Window 3 (the second cloud's squared norms, a row) reads block `(b, 0, j)`. -/
theorem idx3 : ∀ t : Fin cfg0.N, win0_3.index t (0 : Fin 3) = t.val / 64 ∧ win0_3.index t 1 = 0 ∧ win0_3.index t 2 = t.val % 8 :=
  (by decide +kernel : ∀ t : Fin grid0.N, _)

/-! ## The blocks

  Along every axis a block's coordinate in the array is `block index * block extent + coordinate inside the block`;
  with the decided block indices this is the batch, the tile's row and the component. -/

/-- Row `r`, component `d` of the first cloud's block at `t` is point `1024 i + r` of batch `b`. -/
theorem blk0 (c : Dev nD) (t : Fin cfg0.N) (r : Fin 1024) (d : Fin 3) :
    (iblk0 V c 0 t : Vec F S1x1024x3 .f32) (ix3 0 r d)
      = (V c main_arg0 : Vec F S4x8192x3 .f32) (ix3 (batchOf t.val (lt256 t)) (rowOf t.val r) d) := by
  have hi := idx0 t
  unfold iblk0
  rw [View.read_apply]
  show V c main_arg0 (((cfg0.win 0).blk t).view.emb (ix3 0 r d)) = V c main_arg0 _
  congr 1
  funext a
  apply Fin.ext
  match a with
  | ⟨0, _⟩ =>
    show win0_0.index t 0 * 1 + 1 * (0 : Fin 1).val = t.val / 64
    rw [hi.1]; simp
  | ⟨1, _⟩ =>
    show win0_0.index t 1 * 1024 + 1 * r.val = (t.val / 8 % 8) * 1024 + r.val
    rw [hi.2.1]; omega
  | ⟨2, _⟩ =>
    show win0_0.index t 2 * 3 + 1 * d.val = d.val
    rw [hi.2.2]; omega

/-- Row `l`, component `d` of the second cloud's block at `t` is point `1024 j + l` of batch `b`. -/
theorem blk1 (c : Dev nD) (t : Fin cfg0.N) (l : Fin 1024) (d : Fin 3) :
    (iblk0 V c 1 t : Vec F S1x1024x3 .f32) (ix3 0 l d)
      = (V c main_arg1 : Vec F S4x8192x3 .f32) (ix3 (batchOf t.val (lt256 t)) (colOf t.val l) d) := by
  have hi := idx1 t
  unfold iblk0
  rw [View.read_apply]
  show V c main_arg1 (((cfg0.win 1).blk t).view.emb (ix3 0 l d)) = V c main_arg1 _
  congr 1
  funext a
  apply Fin.ext
  match a with
  | ⟨0, _⟩ =>
    show win0_1.index t 0 * 1 + 1 * (0 : Fin 1).val = t.val / 64
    rw [hi.1]; simp
  | ⟨1, _⟩ =>
    show win0_1.index t 1 * 1024 + 1 * l.val = (t.val % 8) * 1024 + l.val
    rw [hi.2.1]; omega
  | ⟨2, _⟩ =>
    show win0_1.index t 2 * 3 + 1 * d.val = d.val
    rw [hi.2.2]; omega

/-- Row `r` of the first cloud's squared-norm block at `t` is the squared norm of point `1024 i + r` of batch `b`. -/
theorem blk2 (c : Dev nD) (t : Fin cfg0.N) (r : Fin 1024) :
    (iblk0 V c 2 t : Vec F S1x1024x1 .f32) (ix3 0 r 0)
      = (V c main_v2 : Vec F S4x8192x1 .f32) (ix3 (batchOf t.val (lt256 t)) (rowOf t.val r) 0) := by
  have hi := idx2 t
  unfold iblk0
  rw [View.read_apply]
  show V c main_v2 (((cfg0.win 2).blk t).view.emb (ix3 0 r 0)) = V c main_v2 _
  congr 1
  funext a
  apply Fin.ext
  match a with
  | ⟨0, _⟩ =>
    show win0_2.index t 0 * 1 + 1 * (0 : Fin 1).val = t.val / 64
    rw [hi.1]; simp
  | ⟨1, _⟩ =>
    show win0_2.index t 1 * 1024 + 1 * r.val = (t.val / 8 % 8) * 1024 + r.val
    rw [hi.2.1]; omega
  | ⟨2, _⟩ =>
    show win0_2.index t 2 * 1 + 1 * (0 : Fin 1).val = (0 : Fin 1).val
    rw [hi.2.2]; simp

/-- Entry `l` of the second cloud's squared-norm block at `t` is the squared norm of point `1024 j + l` of batch `b`. -/
theorem blk3 (c : Dev nD) (t : Fin cfg0.N) (l : Fin 1024) :
    (iblk0 V c 3 t : Vec F S1x1x1024 .f32) (ix3 0 0 l)
      = (V c main_v5 : Vec F S4x1x8192 .f32) (ix3 (batchOf t.val (lt256 t)) 0 (colOf t.val l)) := by
  have hi := idx3 t
  unfold iblk0
  rw [View.read_apply]
  show V c main_v5 (((cfg0.win 3).blk t).view.emb (ix3 0 0 l)) = V c main_v5 _
  congr 1
  funext a
  apply Fin.ext
  match a with
  | ⟨0, _⟩ =>
    show win0_3.index t 0 * 1 + 1 * (0 : Fin 1).val = t.val / 64
    rw [hi.1]; simp
  | ⟨1, _⟩ =>
    show win0_3.index t 1 * 1 + 1 * (0 : Fin 1).val = (0 : Fin 1).val
    rw [hi.2.1]; simp
  | ⟨2, _⟩ =>
    show win0_3.index t 2 * 1024 + 1 * l.val = (t.val % 8) * 1024 + l.val
    rw [hi.2.2]; omega

end Cert.KernelIdeal.Region0

end
-- ==== Proof.Payload.lean ====
/-
  The kernel body's arithmetic, read at one entry of the block it stores, over the extended reals.
-/
import proofs.«141910_j40939628265652_1_alg».proof.Proof.Gen.KernelIdeal.Skeleton
import proofs.«141910_j40939628265652_1_alg».proof.Proof.ChamferSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The pattern of positive infinity is the top element. -/
theorem top_eq : Ideal.ofBits .f32 0x7F800000#32 = (⊤ : EReal) := by
  simp [Ideal.ofBits, Ideal.ieee]

/-- The block the first grid step along the reduction axis stores: the top element everywhere. -/
theorem reset_apply (r : Fin 1024) : k0_pay1 (F := Ideal) (ix3 0 r 0) = (⊤ : EReal) := by
  unfold k0_pay1
  refine (shapeCast_ab_1ab_apply _ _ 0 r 0).trans ?_
  exact top_eq

/-! ## A vector cast to a column, and a column broadcast over the lanes, read at coordinates -/

/-- An `[a]` array cast to a column `[a, 1]` reads, at `(i, u)`, the operand at `i`: the row-major position is the same. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane minimum -/

/-- A `vector.multi_reduction <minimumf>` over one axis, at the extended reals: the fold of `min` from the
    accumulator's value over that axis's coordinates. -/
private theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the lanes of a 1024 by 1024 block, started from the pattern of positive infinity, is at row `r`
    the least of the row's 1024 entries. -/
private theorem laneMin_apply (src : FVec Ideal S1024x1024 .f32) (h : S1024x1024.Reduces [1] S1024)
    (hφ : FKind.Formats .f32) (hacc : (0x7F800000#32 : BitVec 32) = FKind.minimumf.neutral .f32 hφ) (r : Fin 1024) :
    multiReduction (F := Ideal) .minimumf [1] S1024 src 0x7F800000#32 h hφ hacc (ix1 r)
      = Chamfer.minOver fun l : Fin 1024 => src (ix2 r l) := by
  refine (multiReduction_minimumf_single src _ h hφ hacc (ix1 r)).trans ?_
  unfold Chamfer.minOver
  show (Finset.univ : Finset (Fin 1024)).fold min (Ideal.ofBits .f32 0x7F800000#32) (fun l => src (h.lift (ix1 r) l)) = _
  rw [top_eq]
  refine congrArg (fun f => (Finset.univ : Finset (Fin 1024)).fold min ⊤ f)
    (funext fun l => congrArg src (funext fun c => Fin.ext ?_))
  match c with
  | ⟨0, _⟩ => rfl
  | ⟨1, _⟩ => rfl

/-! ## The product of the two tiles -/

/-- The left operand's row is the output's row. -/
private theorem lhs_tile_0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
/-- The left operand's coordinate axis is the contracted one. -/
private theorem lhs_tile_1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q
/-- The right operand's row is the output's column. -/
private theorem rhs_tile_0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
/-- The right operand's coordinate axis is the contracted one. -/
private theorem rhs_tile_1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q

/-- The product of two tiles of 1024 points, contracted over the three coordinates of both, accumulated into zero: at
    `(r, l)` the inner product of row `r` of the first with row `l` of the second. -/
private theorem tileDot_apply (a b : FVec Ideal S1024x3 .f32) (r l : Fin 1024) :
    matmul dot_S1024x3_S1024x3_S1024x1024_1_1_0_0_n_n (some .fp32) a b (constant (F := Ideal) S1024x1024 .f32 0x00000000#32) (ix2 r l)
      = ∑ d : Fin 3, a (ix2 r d) * b (ix2 l d) := by
  simp only [matmul]
  rw [Ideal.matmul_constant_zero_apply, ← Equiv.sum_comp (ValueIdx.contrEquiv1 dot_S1024x3_S1024x3_S1024x1024_1_1_0_0_n_n 3 rfl rfl).symm]
  refine Finset.sum_congr rfl fun k _ => ?_
  have hk := ValueIdx.contrEquiv1_symm_val dot_S1024x3_S1024x3_S1024x1024_1_1_0_0_n_n 3 rfl rfl k
  have el : dot_S1024x3_S1024x3_S1024x1024_1_1_0_0_n_n.lhsIdx (ix2 r l) ((ValueIdx.contrEquiv1 dot_S1024x3_S1024x3_S1024x1024_1_1_0_0_n_n 3 rfl rfl).symm k) = ix2 r k := funext fun c => Fin.ext (by
    match c with
    | ⟨0, _⟩ => exact lhs_tile_0 _ _
    | ⟨1, _⟩ => exact (lhs_tile_1 _ _).trans hk)
  have er : dot_S1024x3_S1024x3_S1024x1024_1_1_0_0_n_n.rhsIdx (ix2 r l) ((ValueIdx.contrEquiv1 dot_S1024x3_S1024x3_S1024x1024_1_1_0_0_n_n 3 rfl rfl).symm k) = ix2 l k := funext fun c => Fin.ext (by
    match c with
    | ⟨0, _⟩ => exact rhs_tile_0 _ _
    | ⟨1, _⟩ => exact (rhs_tile_1 _ _).trans hk)
  rw [el, er]

/-- What a grid step stores in row `r` of the output block: the `min` of what the block held and the least distance
    from row `r` of the first tile to the 1024 rows of the second. -/
theorem step_apply (x0 x1 : Vec Ideal S1x1024x3 .f32) (x2 : Vec Ideal S1x1024x1 .f32) (x3 : Vec Ideal S1x1x1024 .f32)
    (xo : Vec Ideal S1x1024x1 .f32) (r : Fin 1024) :
    k0_pay2 (F := Ideal) x0 x1 x2 x3 xo (ix3 0 r 0)
      = min (xo (ix3 0 r 0)) (Chamfer.minOver fun l : Fin 1024 => Chamfer.tdist x0 x1 x2 x3 r l) := by
  unfold k0_pay2
  refine (shapeCast_ab_1ab_apply _ _ 0 r 0).trans ?_
  rw [minimumf_apply]
  refine congrArg₂ min (shapeCast_1ab_ab_apply xo _ r 0) ?_
  refine (shapeCast_a_a1_apply _ _ r 0).trans ((laneMin_apply _ _ _ _ r).trans ?_)
  refine congrArg Chamfer.minOver (funext fun l => ?_)
  unfold Chamfer.tdist Chamfer.gap
  refine congrArg Ideal.sqrt (congrArg₂ max (congrArg₂ (· - ·) (congrArg₂ (· + ·) ?_ ?_) (congrArg₂ (· * ·) rfl ?_)) rfl)
  · exact (broadcastTo_a1_ab_apply _ _ r l).trans (shapeCast_1ab_ab_apply x2 _ r 0)
  · exact (broadcastTo_1b_ab_apply _ _ r l).trans (shapeCast_1ab_ab_apply x3 _ 0 l)
  · exact (tileDot_apply _ _ r l).trans (Finset.sum_congr rfl fun d _ =>
      congrArg₂ (· * ·) (shapeCast_1ab_ab_apply x0 _ r d) (shapeCast_1ab_ab_apply x1 _ l d))

/-- The second call's body is the first's. -/
theorem reset1_eq {F : FTy → Type} [FloatOps F] : k1_pay1 (F := F) = k0_pay1 (F := F) := rfl
theorem step1_eq {F : FTy → Type} [FloatOps F] : k1_pay2 (F := F) = k0_pay2 (F := F) := rfl

/-- So the second call's reset block and update read at an entry as the first's do. -/
theorem reset1_apply (r : Fin 1024) : k1_pay1 (F := Ideal) (ix3 0 r 0) = (⊤ : EReal) := reset_apply r
theorem step1_apply (x0 x1 : Vec Ideal S1x1024x3 .f32) (x2 : Vec Ideal S1x1024x1 .f32) (x3 : Vec Ideal S1x1x1024 .f32)
    (xo : Vec Ideal S1x1024x1 .f32) (r : Fin 1024) :
    k1_pay2 (F := Ideal) x0 x1 x2 x3 xo (ix3 0 r 0)
      = min (xo (ix3 0 r 0)) (Chamfer.minOver fun l : Fin 1024 => Chamfer.tdist x0 x1 x2 x3 r l) :=
  step_apply x0 x1 x2 x3 xo r

end Cert.KernelIdeal.Payload

end
-- ==== Proof.Region0.lean ====
/-
  The first call: its result array ends holding, for every point of the first cloud, the distance to its nearest point
  of the second.
-/
import proofs.«141910_j40939628265652_1_alg».proof.Proof.Pieces0
import proofs.«141910_j40939628265652_1_alg».proof.Proof.Blocks0
import proofs.«141910_j40939628265652_1_alg».proof.Proof.Payload
import proofs.«141910_j40939628265652_1_alg».proof.Proof.ChamferSpec
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The blocks and the arrays, each named at its literal type -/

/-- The block of the first cloud that grid point `t` sees. -/
abbrev xb0 (c : Dev nD) (t : Fin cfg0.N) : Vec Ideal S1x1024x3 .f32 := iblk0 V c 0 t
/-- The block of the second cloud that grid point `t` sees. -/
abbrev xb1 (c : Dev nD) (t : Fin cfg0.N) : Vec Ideal S1x1024x3 .f32 := iblk0 V c 1 t
/-- The block of the first cloud's squared norms that grid point `t` sees. -/
abbrev xb2 (c : Dev nD) (t : Fin cfg0.N) : Vec Ideal S1x1024x1 .f32 := iblk0 V c 2 t
/-- The block of the second cloud's squared norms that grid point `t` sees. -/
abbrev xb3 (c : Dev nD) (t : Fin cfg0.N) : Vec Ideal S1x1x1024 .f32 := iblk0 V c 3 t
/-- The first cloud. -/
abbrev aX (c : Dev nD) : Vec Ideal S4x8192x3 .f32 := V c main_arg0
/-- The second cloud. -/
abbrev aY (c : Dev nD) : Vec Ideal S4x8192x3 .f32 := V c main_arg1
/-- The first cloud's squared norms, a column. -/
abbrev aP (c : Dev nD) : Vec Ideal S4x8192x1 .f32 := V c main_v2
/-- The second cloud's squared norms, a row. -/
abbrev aQ (c : Dev nD) : Vec Ideal S4x1x8192 .f32 := V c main_v5

/-- The block reads, over those names. -/
theorem xb0_apply (c : Dev nD) (t : Fin cfg0.N) (r : Fin 1024) (d : Fin 3) :
    xb0 V c t (ix3 0 r d) = aX V c (ix3 (batchOf t.val (lt256 t)) (rowOf t.val r) d) := blk0 V c t r d
theorem xb1_apply (c : Dev nD) (t : Fin cfg0.N) (l : Fin 1024) (d : Fin 3) :
    xb1 V c t (ix3 0 l d) = aY V c (ix3 (batchOf t.val (lt256 t)) (colOf t.val l) d) := blk1 V c t l d
theorem xb2_apply (c : Dev nD) (t : Fin cfg0.N) (r : Fin 1024) :
    xb2 V c t (ix3 0 r 0) = aP V c (ix3 (batchOf t.val (lt256 t)) (rowOf t.val r) 0) := blk2 V c t r
theorem xb3_apply (c : Dev nD) (t : Fin cfg0.N) (l : Fin 1024) :
    xb3 V c t (ix3 0 0 l) = aQ V c (ix3 (batchOf t.val (lt256 t)) 0 (colOf t.val l)) := blk3 V c t l

/-- Inside the tile of grid point `t`, the distance from row `r` of the first block to row `l` of the second is the
    distance between the two points of the clouds those rows are. -/
theorem tdist_blocks (c : Dev nD) (t : Fin cfg0.N) (r l : Fin 1024) :
    Chamfer.tdist (xb0 V c t) (xb1 V c t) (xb2 V c t) (xb3 V c t) r l
      = Chamfer.dist (aX V c) (aY V c) (aP V c) (aQ V c) (batchOf t.val (lt256 t)) (rowOf t.val r) (colOf t.val l) := by
  unfold Chamfer.tdist Chamfer.dist
  rw [xb2_apply V c t r, xb3_apply V c t l]
  refine congrArg _ (Finset.sum_congr rfl fun d _ => ?_)
  rw [xb0_apply V c t r d, xb1_apply V c t l d]

/-! ## The running minimum, grid point by grid point -/

/-- What the running minimum should be after grid point `n`, in row `r` of the block: the least distance from that row's
    point to the points of the second cloud in the column tiles met so far, `n % 8 + 1` of them. -/
abbrev runMin (c : Dev nD) (n : Nat) (hn : n < 256) (r : Fin 1024) : EReal :=
  Chamfer.prefixMin (fun m => Chamfer.dist (aX V c) (aY V c) (aP V c) (aQ V c) (batchOf n hn) (rowOf n r) m)
    ((n % 8 + 1) * 1024)

/-- At the first column tile the block is reset and then updated: the minimum over that tile alone. -/
theorem stepA (c : Dev nD) (t : Fin cfg0.N) (h0 : t.val % 8 = 0) (r : Fin 1024) :
    (outsAt0 V c t.val t.isLt : Vec Ideal S1x1024x1 .f32) (ix3 0 r 0) = runMin V c t.val (lt256 t) r := by
  rw [outsAt0_A V c t h0]
  refine (congrFun (outA_eq (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xb0 V c t) (xb1 V c t) (xb2 V c t) (xb3 V c t))
    (ix3 0 r 0)).trans ?_
  rw [Payload.step_apply, Payload.reset_apply]
  have e : (t.val % 8 + 1) * 1024 = 1024 := by omega
  show _ = Chamfer.prefixMin _ ((t.val % 8 + 1) * 1024)
  rw [e, Chamfer.prefixMin_first]
  refine congrArg (min ⊤) (congrArg Chamfer.minOver (funext fun l => ?_))
  rw [tdist_blocks V c t r l]
  exact congrArg (Chamfer.dist (aX V c) (aY V c) (aP V c) (aQ V c) (batchOf t.val (lt256 t)) (rowOf t.val r))
    (Fin.ext (by show t.val % 8 * 1024 + l.val = l.val; omega))

/-- At a later column tile the block found is updated: the minimum so far against the minimum over this tile. -/
theorem stepB (c : Dev nD) (t : Fin cfg0.N) (h0 : ¬t.val % 8 = 0) (r : Fin 1024)
    (ih : (outsAt0 V c (t.val - 1) (Nat.lt_of_le_of_lt (Nat.sub_le _ _) t.isLt) : Vec Ideal S1x1024x1 .f32) (ix3 0 r 0)
      = runMin V c (t.val - 1) (Nat.lt_of_le_of_lt (Nat.sub_le _ _) (lt256 t)) r) :
    (outsAt0 V c t.val t.isLt : Vec Ideal S1x1024x1 .f32) (ix3 0 r 0) = runMin V c t.val (lt256 t) r := by
  rw [outsAt0_B V c t h0]
  refine (congrFun (outB_eq (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xb0 V c t) (xb1 V c t) (xb2 V c t) (xb3 V c t)
    (outsAt0 V c (t.val - 1) (Nat.lt_of_le_of_lt (Nat.sub_le _ _) t.isLt))) (ix3 0 r 0)).trans ?_
  rw [Payload.step_apply, ih]
  have hlt := lt256 t
  have eb : batchOf (t.val - 1) (Nat.lt_of_le_of_lt (Nat.sub_le _ _) (lt256 t)) = batchOf t.val (lt256 t) :=
    Fin.ext (by show (t.val - 1) / 64 = t.val / 64; omega)
  have er : rowOf (t.val - 1) r = rowOf t.val r :=
    Fin.ext (by show (t.val - 1) / 8 % 8 * 1024 + r.val = t.val / 8 % 8 * 1024 + r.val; omega)
  have e1 : ((t.val - 1) % 8 + 1) * 1024 = (t.val % 8) * 1024 := by omega
  show min (Chamfer.prefixMin _ (((t.val - 1) % 8 + 1) * 1024)) _ = Chamfer.prefixMin _ ((t.val % 8 + 1) * 1024)
  rw [eb, er, e1, Chamfer.prefixMin_tile _ (t.val % 8) (by omega)]
  refine congrArg (min _) (congrArg Chamfer.minOver (funext fun l => ?_))
  rw [tdist_blocks V c t r l]
  rfl

/-- After every grid point the block holds the running minimum: by induction on the point. -/
theorem outsAt_eq (c : Dev nD) : ∀ (n : ℕ) (h : n < cfg0.N) (r : Fin 1024),
    (outsAt0 V c n h : Vec Ideal S1x1024x1 .f32) (ix3 0 r 0) = runMin V c n (lt256 ⟨n, h⟩) r
  | 0, h, r => stepA V c ⟨0, h⟩ rfl r
  | n + 1, h, r => by
    by_cases h0 : (n + 1) % 8 = 0
    · exact stepA V c ⟨n + 1, h⟩ h0 r
    · exact stepB V c ⟨n + 1, h⟩ h0 r (outsAt_eq c n (Nat.lt_of_succ_lt h) r)

/-! ## What a write-back writes -/

/-- The result's block index at grid point `t`: batch, row tile, 0 (decided over the grid). -/
theorem idx4 : ∀ t : Fin cfg0.N,
    win0_4.index t 0 = t.val / 64 ∧ win0_4.index t 1 = t.val / 8 % 8 ∧ win0_4.index t 2 = 0 :=
  (by decide +kernel : ∀ t : Fin grid0.N,
    win0_4.index t 0 = t.val / 64 ∧ win0_4.index t 1 = t.val / 8 % 8 ∧ win0_4.index t 2 = 0)

/-- Row `r` of the result's block at grid point `t` sits in the result array at the point of the first cloud it is:
    on each axis the block index times the block's size plus the row's coordinate. -/
theorem emb4 (t : Fin cfg0.N) (r : Fin 1024) :
    ((cfg0.win 4).blk t).view.emb (ix3 0 r 0 : S1x1024x1.Idx)
      = (ix3 (batchOf t.val (lt256 t)) (rowOf t.val r) 0 : S4x8192x1.Idx) := by
  obtain ⟨i0, i1, i2⟩ := idx4 t
  funext a
  apply Fin.ext
  match a with
  | ⟨0, ha⟩ =>
    refine (win0_4.rect_emb_val t (ix3 0 r 0 : S1x1024x1.Idx) ⟨0, ha⟩).trans ?_
    show win0_4.index t 0 * 1 + 0 = t.val / 64
    rw [i0]; omega
  | ⟨1, ha⟩ =>
    refine (win0_4.rect_emb_val t (ix3 0 r 0 : S1x1024x1.Idx) ⟨1, ha⟩).trans ?_
    show win0_4.index t 1 * 1024 + r.val = t.val / 8 % 8 * 1024 + r.val
    rw [i1]
  | ⟨2, ha⟩ =>
    refine (win0_4.rect_emb_val t (ix3 0 r 0 : S1x1024x1.Idx) ⟨2, ha⟩).trans ?_
    show win0_4.index t 2 * 1 + 0 = 0
    rw [i2]

/-- The result asked for, over the names above. -/
abbrev want (c : Dev nD) : Vec Ideal S4x8192x1 .f32 := Chamfer.nearest (aX V c) (aY V c) (aP V c) (aQ V c)

/-- A write-back happens after the last column tile, when the running minimum has met every point of the second cloud:
    what it writes is its block of the result asked for. -/
theorem flushed_eq (c : Dev nD) (t : Fin cfg0.N) (hf : (cfg0.win 4).flush t = true) :
    (dat0 (F := Ideal) V c).flushed 4 t = ((cfg0.win 4).blk t).view.read (Elt Ideal) (want V c) := by
  have h7 : t.val % 8 = 7 := (flush0_4 t).mp hf
  show (cfg0.win 4).cut (grid0.coords t) ((dat0 V c).after 4 t) = _
  rw [after0_4]
  funext y
  obtain ⟨r, rfl⟩ : ∃ r : Fin 1024, y = (ix3 0 r 0 : S1x1024x1.Idx) :=
    ⟨(y : S1x1024x1.Idx) 1, by
      funext a
      match a with
      | ⟨0, _⟩ => exact Subsingleton.elim (α := Fin 1) _ _
      | ⟨1, _⟩ => rfl
      | ⟨2, _⟩ => exact Subsingleton.elim (α := Fin 1) _ _⟩
  refine (outsAt_eq V c t.val t.isLt r).trans ?_
  rw [View.read_apply]
  show _ = want V c (((cfg0.win 4).blk t).view.emb (ix3 0 r 0 : S1x1024x1.Idx))
  rw [emb4 t r]
  show Chamfer.prefixMin _ ((t.val % 8 + 1) * 1024) = Chamfer.nearest _ _ _ _ (ix3 _ _ 0)
  rw [Chamfer.nearest_apply, show (t.val % 8 + 1) * 1024 = 8192 by omega, Chamfer.prefixMin_full]

/-! ## The write-backs cover the result -/

/-- The grid point after which the block holding point `n` of batch `b` is written back: the last column tile of
    that point's row tile. -/
def lastPt (b : Fin 4) (n : Fin 8192) : Fin cfg0.N :=
  ⟨64 * b.val + 8 * (n.val / 1024) + 7, by
    rw [show cfg0.N = 256 from N_0]; have := b.isLt; have := n.isLt; omega⟩

/-- Every index of the result lies in a block that is written back. -/
theorem cover4 (i : S4x8192x1.Idx) :
    ∃ t : Fin cfg0.N, (cfg0.win 4).flush t = true ∧ i ∈ ((cfg0.win 4).blk t).view.set := by
  have hb : (i 0 : Nat) < 4 := (i 0).isLt
  have hn : (i 1 : Nat) < 8192 := (i 1).isLt
  have hz : (i 2 : Nat) < 1 := (i 2).isLt
  have v : (lastPt (i 0) (i 1)).val = 64 * (i 0).val + 8 * ((i 1).val / 1024) + 7 := rfl
  refine ⟨lastPt (i 0) (i 1), (flush0_4 _).mpr (by rw [v]; omega), ?_⟩
  obtain ⟨i0, i1, i2⟩ := idx4 (lastPt (i 0) (i 1))
  show i ∈ ((View.whole main_v6).slice (win0_4.rect (lastPt (i 0) (i 1)))).set
  rw [View.set_slice_whole, Rect.mem_set_unit]
  intro a
  match a with
  | ⟨0, _⟩ =>
    show win0_4.index (lastPt (i 0) (i 1)) 0 * 1 ≤ (i 0 : Nat)
      ∧ (i 0 : Nat) < win0_4.index (lastPt (i 0) (i 1)) 0 * 1 + 1
    rw [i0, v]; omega
  | ⟨1, _⟩ =>
    show win0_4.index (lastPt (i 0) (i 1)) 1 * 1024 ≤ (i 1 : Nat)
      ∧ (i 1 : Nat) < win0_4.index (lastPt (i 0) (i 1)) 1 * 1024 + 1024
    rw [i1, v]; omega
  | ⟨2, _⟩ =>
    show win0_4.index (lastPt (i 0) (i 1)) 2 * 1 ≤ (i 2 : Nat)
      ∧ (i 2 : Nat) < win0_4.index (lastPt (i 0) (i 1)) 2 * 1 + 1
    rw [i2]; omega

/-- The call's result array after its last grid step, from the contents `V` it is entered with. -/
theorem final0 (c : Dev nD) :
    (dat0 (F := Ideal) V c).arrAt 4 cfg0.N
      = Chamfer.nearest (V c main_arg0) (V c main_arg1) (V c main_v2) (V c main_v5) :=
  (dat0 (F := Ideal) V c).arrAt_eq_of_cover 4 (want V c) (flushed_eq V c) cover4

end Cert.KernelIdeal.Region0

end
-- ==== Proof.Pieces1.lean ====
/-
  What each control case of the second call's body leaves in the output block, as the body's arithmetic.
-/
import proofs.«141910_j40939628265652_1_alg».proof.Proof.Gen.KernelIdeal.Frame
import Idealize.ShloMosaic.Lib.Pipeline.Value
import Idealize.ShloMosaic.Lib.Tactic

noncomputable section

namespace Cert.KernelIdeal.Region1

open Cert.KernelIdeal Cert.KernelIdeal.Gen Idealize.ShloMosaic Idealize.ShloMosaic.TcCoe Idealize.SL.Sem

variable {F : FTy → Type} [FloatOps F]

/-- The all-zero offset of a rank-3 block, as the constant function. -/
private theorem hz : (![0, 0, 0] : Fin 3 → Nat) = fun _ => 0 := funext fun a => by fin_cases a <;> rfl

/-- At the first step along the reduction axis the body resets the block and then updates it: the update of the reset block. -/
theorem outA_eq (c : Dev nD) (i : grid1.Coords) (arg3 : Memref sig .tc .vmem S1x1024x3 .f32) (harg3 : arg3.IsWhole)
    (arg4 : Memref sig .tc .vmem S1x1024x3 .f32) (harg4 : arg4.IsWhole) (arg5 : Memref sig .tc .vmem S1x1024x1 .f32) (harg5 : arg5.IsWhole)
    (arg6 : Memref sig .tc .vmem S1x1x1024 .f32) (harg6 : arg6.IsWhole) (arg7 : Memref sig .tc .vmem S1x1024x1 .f32) (harg7 : arg7.IsWhole)
    (hc0 : cond1_0 i) (x0 : Vec F S1x1024x3 .f32) (x1 : Vec F S1x1024x3 .f32) (x2 : Vec F S1x1024x1 .f32) (x3 : Vec F S1x1x1024 .f32) :
    out1_A_4 c i arg3 harg3 arg4 harg4 arg5 harg5 arg6 harg6 arg7 harg7 hc0 x0 x1 x2 x3
      = k1_pay2 x0 x1 x2 x3 (k1_pay1 (F := F)) := by
  unfold out1_A_4
  rw [View.read_writes_eq_canon _ _ _ (cover1_A_4 c i arg3 harg3 arg4 harg4 arg5 harg5 arg6 harg6 arg7 harg7 hc0 x0 x1 x2 x3)]
  unfold kernelRun1_A
  dsimp only
  sl_unfold_words
  rw [View.canon_cons_unit_zero (S := S1x1024x1) hz, View.readCov_unit_zero (S := S1x1024x1) _ hz]
  simp only [View.readAt_eq_ld, harg3.read_unread, harg4.read_unread, harg5.read_unread, harg6.read_unread,
    View.ld_unit_zero (S := S1x1024x3) hz, View.ld_unit_zero (S := S1x1024x1) hz, View.ld_unit_zero (S := S1x1x1024) hz]

/-- At every later step the body updates the block it finds. -/
theorem outB_eq (c : Dev nD) (i : grid1.Coords) (arg3 : Memref sig .tc .vmem S1x1024x3 .f32) (harg3 : arg3.IsWhole)
    (arg4 : Memref sig .tc .vmem S1x1024x3 .f32) (harg4 : arg4.IsWhole) (arg5 : Memref sig .tc .vmem S1x1024x1 .f32) (harg5 : arg5.IsWhole)
    (arg6 : Memref sig .tc .vmem S1x1x1024 .f32) (harg6 : arg6.IsWhole) (arg7 : Memref sig .tc .vmem S1x1024x1 .f32) (harg7 : arg7.IsWhole)
    (hc0 : ¬cond1_0 i) (x0 : Vec F S1x1024x3 .f32) (x1 : Vec F S1x1024x3 .f32) (x2 : Vec F S1x1024x1 .f32) (x3 : Vec F S1x1x1024 .f32)
    (xo4 : Vec F S1x1024x1 .f32) :
    out1_B_4 c i arg3 harg3 arg4 harg4 arg5 harg5 arg6 harg6 arg7 harg7 hc0 x0 x1 x2 x3 xo4
      = k1_pay2 x0 x1 x2 x3 xo4 := by
  unfold out1_B_4
  rw [View.read_writes_eq_canon _ _ _ (cover1_B_4 c i arg3 harg3 arg4 harg4 arg5 harg5 arg6 harg6 arg7 harg7 hc0 x0 x1 x2 x3 xo4)]
  unfold kernelRun1_B
  dsimp only
  sl_unfold_words
  rw [View.canon_unit_zero hz]
  simp only [View.readAt_eq_ld, harg3.read_unread, harg4.read_unread, harg5.read_unread, harg6.read_unread, harg7.read_unread,
    View.ld_unit_zero (S := S1x1024x3) hz, View.ld_unit_zero (S := S1x1024x1) hz, View.ld_unit_zero (S := S1x1x1024) hz]

end Cert.KernelIdeal.Region1

end
-- ==== Proof.Blocks1.lean ====
/-
  The second call's windows: the block a grid point sees is the entry array read at explicit coordinates.
  Grid point `t` of the 4 x 8 x 8 grid is batch `t / 64`, row tile `t / 8 % 8`, column tile `t % 8`.
-/
import proofs.«141910_j40939628265652_1_alg».proof.Proof.Gen.KernelIdeal.Frame
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- The batch of grid point `t`. -/
def batchOf (t : Nat) (ht : t < 256) : Fin 4 := ⟨t / 64, by omega⟩
/-- Row `r` of the row tile of grid point `t`, as a point of the second cloud. -/
def rowOf (t : Nat) (r : Fin 1024) : Fin 8192 := ⟨(t / 8 % 8) * 1024 + r.val, by have := r.isLt; omega⟩
/-- Row `l` of the column tile of grid point `t`, as a point of the first cloud. -/
def colOf (t : Nat) (l : Fin 1024) : Fin 8192 := ⟨(t % 8) * 1024 + l.val, by have := l.isLt; omega⟩

theorem lt256 (t : Fin cfg1.N) : t.val < 256 := lt_of_lt_of_eq t.isLt (show cfg1.N = 256 from N_1)

/-! ## The block indices of the four input windows, decided once over the 256 grid points

  Each window's index map picks out of the grid coordinates `(b, i, j) = (t / 64, t / 8 % 8, t % 8)` the block it reads:
  the second cloud's windows follow the row tile `i`, the first cloud's the column tile `j`. -/

/-- Window 0 (the second cloud's points) reads block `(b, i, 0)`. -/
theorem idx0 : ∀ t : Fin cfg1.N, win1_0.index t (0 : Fin 3) = t.val / 64 ∧ win1_0.index t 1 = t.val / 8 % 8 ∧ win1_0.index t 2 = 0 :=
  (by decide +kernel : ∀ t : Fin grid1.N, _)

/-- Window 1 (the first cloud's points) reads block `(b, j, 0)`. -/
theorem idx1 : ∀ t : Fin cfg1.N, win1_1.index t (0 : Fin 3) = t.val / 64 ∧ win1_1.index t 1 = t.val % 8 ∧ win1_1.index t 2 = 0 :=
  (by decide +kernel : ∀ t : Fin grid1.N, _)

/-- Window 2 (the second cloud's squared norms, a column) reads block `(b, i, 0)`. -/
theorem idx2 : ∀ t : Fin cfg1.N, win1_2.index t (0 : Fin 3) = t.val / 64 ∧ win1_2.index t 1 = t.val / 8 % 8 ∧ win1_2.index t 2 = 0 :=
  (by decide +kernel : ∀ t : Fin grid1.N, _)

/-- Window 3 (the first cloud's squared norms, a row) reads block `(b, 0, j)`. -/
theorem idx3 : ∀ t : Fin cfg1.N, win1_3.index t (0 : Fin 3) = t.val / 64 ∧ win1_3.index t 1 = 0 ∧ win1_3.index t 2 = t.val % 8 :=
  (by decide +kernel : ∀ t : Fin grid1.N, _)

/-! ## The blocks

  Along every axis a block's coordinate in the array is `block index * block extent + coordinate inside the block`;
  with the decided block indices this is the batch, the tile's row and the component. -/

/-- Row `r`, component `d` of the second cloud's block at `t` is point `1024 i + r` of batch `b`. -/
theorem blk0 (c : Dev nD) (t : Fin cfg1.N) (r : Fin 1024) (d : Fin 3) :
    (iblk1 V c 0 t : Vec F S1x1024x3 .f32) (ix3 0 r d)
      = (V c main_arg1 : Vec F S4x8192x3 .f32) (ix3 (batchOf t.val (lt256 t)) (rowOf t.val r) d) := by
  have hi := idx0 t
  unfold iblk1
  rw [View.read_apply]
  show V c main_arg1 (((cfg1.win 0).blk t).view.emb (ix3 0 r d)) = V c main_arg1 _
  congr 1
  funext a
  apply Fin.ext
  match a with
  | ⟨0, _⟩ =>
    show win1_0.index t 0 * 1 + 1 * (0 : Fin 1).val = t.val / 64
    rw [hi.1]; simp
  | ⟨1, _⟩ =>
    show win1_0.index t 1 * 1024 + 1 * r.val = (t.val / 8 % 8) * 1024 + r.val
    rw [hi.2.1]; omega
  | ⟨2, _⟩ =>
    show win1_0.index t 2 * 3 + 1 * d.val = d.val
    rw [hi.2.2]; omega

/-- Row `l`, component `d` of the first cloud's block at `t` is point `1024 j + l` of batch `b`. -/
theorem blk1 (c : Dev nD) (t : Fin cfg1.N) (l : Fin 1024) (d : Fin 3) :
    (iblk1 V c 1 t : Vec F S1x1024x3 .f32) (ix3 0 l d)
      = (V c main_arg0 : Vec F S4x8192x3 .f32) (ix3 (batchOf t.val (lt256 t)) (colOf t.val l) d) := by
  have hi := idx1 t
  unfold iblk1
  rw [View.read_apply]
  show V c main_arg0 (((cfg1.win 1).blk t).view.emb (ix3 0 l d)) = V c main_arg0 _
  congr 1
  funext a
  apply Fin.ext
  match a with
  | ⟨0, _⟩ =>
    show win1_1.index t 0 * 1 + 1 * (0 : Fin 1).val = t.val / 64
    rw [hi.1]; simp
  | ⟨1, _⟩ =>
    show win1_1.index t 1 * 1024 + 1 * l.val = (t.val % 8) * 1024 + l.val
    rw [hi.2.1]; omega
  | ⟨2, _⟩ =>
    show win1_1.index t 2 * 3 + 1 * d.val = d.val
    rw [hi.2.2]; omega

/-- Row `r` of the second cloud's squared-norm block at `t` is the squared norm of point `1024 i + r` of batch `b`. -/
theorem blk2 (c : Dev nD) (t : Fin cfg1.N) (r : Fin 1024) :
    (iblk1 V c 2 t : Vec F S1x1024x1 .f32) (ix3 0 r 0)
      = (V c main_v10 : Vec F S4x8192x1 .f32) (ix3 (batchOf t.val (lt256 t)) (rowOf t.val r) 0) := by
  have hi := idx2 t
  unfold iblk1
  rw [View.read_apply]
  show V c main_v10 (((cfg1.win 2).blk t).view.emb (ix3 0 r 0)) = V c main_v10 _
  congr 1
  funext a
  apply Fin.ext
  match a with
  | ⟨0, _⟩ =>
    show win1_2.index t 0 * 1 + 1 * (0 : Fin 1).val = t.val / 64
    rw [hi.1]; simp
  | ⟨1, _⟩ =>
    show win1_2.index t 1 * 1024 + 1 * r.val = (t.val / 8 % 8) * 1024 + r.val
    rw [hi.2.1]; omega
  | ⟨2, _⟩ =>
    show win1_2.index t 2 * 1 + 1 * (0 : Fin 1).val = (0 : Fin 1).val
    rw [hi.2.2]; simp

/-- Entry `l` of the first cloud's squared-norm block at `t` is the squared norm of point `1024 j + l` of batch `b`. -/
theorem blk3 (c : Dev nD) (t : Fin cfg1.N) (l : Fin 1024) :
    (iblk1 V c 3 t : Vec F S1x1x1024 .f32) (ix3 0 0 l)
      = (V c main_v13 : Vec F S4x1x8192 .f32) (ix3 (batchOf t.val (lt256 t)) 0 (colOf t.val l)) := by
  have hi := idx3 t
  unfold iblk1
  rw [View.read_apply]
  show V c main_v13 (((cfg1.win 3).blk t).view.emb (ix3 0 0 l)) = V c main_v13 _
  congr 1
  funext a
  apply Fin.ext
  match a with
  | ⟨0, _⟩ =>
    show win1_3.index t 0 * 1 + 1 * (0 : Fin 1).val = t.val / 64
    rw [hi.1]; simp
  | ⟨1, _⟩ =>
    show win1_3.index t 1 * 1 + 1 * (0 : Fin 1).val = (0 : Fin 1).val
    rw [hi.2.1]; simp
  | ⟨2, _⟩ =>
    show win1_3.index t 2 * 1024 + 1 * l.val = (t.val % 8) * 1024 + l.val
    rw [hi.2.2]; omega

end Cert.KernelIdeal.Region1

end
-- ==== Proof.Region1.lean ====
/-
  The second call: its result array ends holding, for every point of the second cloud, the distance to its nearest point
  of the second.
-/
import proofs.«141910_j40939628265652_1_alg».proof.Proof.Pieces1
import proofs.«141910_j40939628265652_1_alg».proof.Proof.Blocks1
import proofs.«141910_j40939628265652_1_alg».proof.Proof.Payload
import proofs.«141910_j40939628265652_1_alg».proof.Proof.ChamferSpec
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The blocks and the arrays, each named at its literal type -/

/-- The block of the second cloud that grid point `t` sees. -/
abbrev xb0 (c : Dev nD) (t : Fin cfg1.N) : Vec Ideal S1x1024x3 .f32 := iblk1 V c 0 t
/-- The block of the first cloud that grid point `t` sees. -/
abbrev xb1 (c : Dev nD) (t : Fin cfg1.N) : Vec Ideal S1x1024x3 .f32 := iblk1 V c 1 t
/-- The block of the second cloud's squared norms that grid point `t` sees. -/
abbrev xb2 (c : Dev nD) (t : Fin cfg1.N) : Vec Ideal S1x1024x1 .f32 := iblk1 V c 2 t
/-- The block of the first cloud's squared norms that grid point `t` sees. -/
abbrev xb3 (c : Dev nD) (t : Fin cfg1.N) : Vec Ideal S1x1x1024 .f32 := iblk1 V c 3 t
/-- The second cloud. -/
abbrev aX (c : Dev nD) : Vec Ideal S4x8192x3 .f32 := V c main_arg1
/-- The first cloud. -/
abbrev aY (c : Dev nD) : Vec Ideal S4x8192x3 .f32 := V c main_arg0
/-- The second cloud's squared norms, a column. -/
abbrev aP (c : Dev nD) : Vec Ideal S4x8192x1 .f32 := V c main_v10
/-- The first cloud's squared norms, a row. -/
abbrev aQ (c : Dev nD) : Vec Ideal S4x1x8192 .f32 := V c main_v13

/-- The block reads, over those names. -/
theorem xb0_apply (c : Dev nD) (t : Fin cfg1.N) (r : Fin 1024) (d : Fin 3) :
    xb0 V c t (ix3 0 r d) = aX V c (ix3 (batchOf t.val (lt256 t)) (rowOf t.val r) d) := blk0 V c t r d
theorem xb1_apply (c : Dev nD) (t : Fin cfg1.N) (l : Fin 1024) (d : Fin 3) :
    xb1 V c t (ix3 0 l d) = aY V c (ix3 (batchOf t.val (lt256 t)) (colOf t.val l) d) := blk1 V c t l d
theorem xb2_apply (c : Dev nD) (t : Fin cfg1.N) (r : Fin 1024) :
    xb2 V c t (ix3 0 r 0) = aP V c (ix3 (batchOf t.val (lt256 t)) (rowOf t.val r) 0) := blk2 V c t r
theorem xb3_apply (c : Dev nD) (t : Fin cfg1.N) (l : Fin 1024) :
    xb3 V c t (ix3 0 0 l) = aQ V c (ix3 (batchOf t.val (lt256 t)) 0 (colOf t.val l)) := blk3 V c t l

/-- Inside the tile of grid point `t`, the distance from row `r` of the first block to row `l` of the second is the
    distance between the two points of the clouds those rows are. -/
theorem tdist_blocks (c : Dev nD) (t : Fin cfg1.N) (r l : Fin 1024) :
    Chamfer.tdist (xb0 V c t) (xb1 V c t) (xb2 V c t) (xb3 V c t) r l
      = Chamfer.dist (aX V c) (aY V c) (aP V c) (aQ V c) (batchOf t.val (lt256 t)) (rowOf t.val r) (colOf t.val l) := by
  unfold Chamfer.tdist Chamfer.dist
  rw [xb2_apply V c t r, xb3_apply V c t l]
  refine congrArg _ (Finset.sum_congr rfl fun d _ => ?_)
  rw [xb0_apply V c t r d, xb1_apply V c t l d]

/-! ## The running minimum, grid point by grid point -/

/-- What the running minimum should be after grid point `n`, in row `r` of the block: the least distance from that row's
    point to the points of the first cloud in the column tiles met so far, `n % 8 + 1` of them. -/
abbrev runMin (c : Dev nD) (n : Nat) (hn : n < 256) (r : Fin 1024) : EReal :=
  Chamfer.prefixMin (fun m => Chamfer.dist (aX V c) (aY V c) (aP V c) (aQ V c) (batchOf n hn) (rowOf n r) m)
    ((n % 8 + 1) * 1024)

/-- At the first column tile the block is reset and then updated: the minimum over that tile alone. -/
theorem stepA (c : Dev nD) (t : Fin cfg1.N) (h0 : t.val % 8 = 0) (r : Fin 1024) :
    (outsAt1 V c t.val t.isLt : Vec Ideal S1x1024x1 .f32) (ix3 0 r 0) = runMin V c t.val (lt256 t) r := by
  rw [outsAt1_A V c t h0]
  refine (congrFun (outA_eq (F := Ideal) c (grid1.coords t) (ms1_0 t) (hs1_0 t) (ms1_1 t) (hs1_1 t) (ms1_2 t) (hs1_2 t)
    (ms1_3 t) (hs1_3 t) (ms1_4 t) (hs1_4 t) ((hcond1_0 t).mpr h0) (xb0 V c t) (xb1 V c t) (xb2 V c t) (xb3 V c t))
    (ix3 0 r 0)).trans ?_
  rw [Payload.step1_apply, Payload.reset1_apply]
  have e : (t.val % 8 + 1) * 1024 = 1024 := by omega
  show _ = Chamfer.prefixMin _ ((t.val % 8 + 1) * 1024)
  rw [e, Chamfer.prefixMin_first]
  refine congrArg (min ⊤) (congrArg Chamfer.minOver (funext fun l => ?_))
  rw [tdist_blocks V c t r l]
  exact congrArg (Chamfer.dist (aX V c) (aY V c) (aP V c) (aQ V c) (batchOf t.val (lt256 t)) (rowOf t.val r))
    (Fin.ext (by show t.val % 8 * 1024 + l.val = l.val; omega))

/-- At a later column tile the block found is updated: the minimum so far against the minimum over this tile. -/
theorem stepB (c : Dev nD) (t : Fin cfg1.N) (h0 : ¬t.val % 8 = 0) (r : Fin 1024)
    (ih : (outsAt1 V c (t.val - 1) (Nat.lt_of_le_of_lt (Nat.sub_le _ _) t.isLt) : Vec Ideal S1x1024x1 .f32) (ix3 0 r 0)
      = runMin V c (t.val - 1) (Nat.lt_of_le_of_lt (Nat.sub_le _ _) (lt256 t)) r) :
    (outsAt1 V c t.val t.isLt : Vec Ideal S1x1024x1 .f32) (ix3 0 r 0) = runMin V c t.val (lt256 t) r := by
  rw [outsAt1_B V c t h0]
  refine (congrFun (outB_eq (F := Ideal) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) (xb0 V c t) (xb1 V c t) (xb2 V c t) (xb3 V c t)
    (outsAt1 V c (t.val - 1) (Nat.lt_of_le_of_lt (Nat.sub_le _ _) t.isLt))) (ix3 0 r 0)).trans ?_
  rw [Payload.step1_apply, ih]
  have hlt := lt256 t
  have eb : batchOf (t.val - 1) (Nat.lt_of_le_of_lt (Nat.sub_le _ _) (lt256 t)) = batchOf t.val (lt256 t) :=
    Fin.ext (by show (t.val - 1) / 64 = t.val / 64; omega)
  have er : rowOf (t.val - 1) r = rowOf t.val r :=
    Fin.ext (by show (t.val - 1) / 8 % 8 * 1024 + r.val = t.val / 8 % 8 * 1024 + r.val; omega)
  have e1 : ((t.val - 1) % 8 + 1) * 1024 = (t.val % 8) * 1024 := by omega
  show min (Chamfer.prefixMin _ (((t.val - 1) % 8 + 1) * 1024)) _ = Chamfer.prefixMin _ ((t.val % 8 + 1) * 1024)
  rw [eb, er, e1, Chamfer.prefixMin_tile _ (t.val % 8) (by omega)]
  refine congrArg (min _) (congrArg Chamfer.minOver (funext fun l => ?_))
  rw [tdist_blocks V c t r l]
  rfl

/-- After every grid point the block holds the running minimum: by induction on the point. -/
theorem outsAt_eq (c : Dev nD) : ∀ (n : ℕ) (h : n < cfg1.N) (r : Fin 1024),
    (outsAt1 V c n h : Vec Ideal S1x1024x1 .f32) (ix3 0 r 0) = runMin V c n (lt256 ⟨n, h⟩) r
  | 0, h, r => stepA V c ⟨0, h⟩ rfl r
  | n + 1, h, r => by
    by_cases h0 : (n + 1) % 8 = 0
    · exact stepA V c ⟨n + 1, h⟩ h0 r
    · exact stepB V c ⟨n + 1, h⟩ h0 r (outsAt_eq c n (Nat.lt_of_succ_lt h) r)

/-! ## What a write-back writes -/

/-- The result's block index at grid point `t`: batch, row tile, 0 (decided over the grid). -/
theorem idx4 : ∀ t : Fin cfg1.N,
    win1_4.index t 0 = t.val / 64 ∧ win1_4.index t 1 = t.val / 8 % 8 ∧ win1_4.index t 2 = 0 :=
  (by decide +kernel : ∀ t : Fin grid1.N,
    win1_4.index t 0 = t.val / 64 ∧ win1_4.index t 1 = t.val / 8 % 8 ∧ win1_4.index t 2 = 0)

/-- Row `r` of the result's block at grid point `t` sits in the result array at the point of the second cloud it is:
    on each axis the block index times the block's size plus the row's coordinate. -/
theorem emb4 (t : Fin cfg1.N) (r : Fin 1024) :
    ((cfg1.win 4).blk t).view.emb (ix3 0 r 0 : S1x1024x1.Idx)
      = (ix3 (batchOf t.val (lt256 t)) (rowOf t.val r) 0 : S4x8192x1.Idx) := by
  obtain ⟨i0, i1, i2⟩ := idx4 t
  funext a
  apply Fin.ext
  match a with
  | ⟨0, ha⟩ =>
    refine (win1_4.rect_emb_val t (ix3 0 r 0 : S1x1024x1.Idx) ⟨0, ha⟩).trans ?_
    show win1_4.index t 0 * 1 + 0 = t.val / 64
    rw [i0]; omega
  | ⟨1, ha⟩ =>
    refine (win1_4.rect_emb_val t (ix3 0 r 0 : S1x1024x1.Idx) ⟨1, ha⟩).trans ?_
    show win1_4.index t 1 * 1024 + r.val = t.val / 8 % 8 * 1024 + r.val
    rw [i1]
  | ⟨2, ha⟩ =>
    refine (win1_4.rect_emb_val t (ix3 0 r 0 : S1x1024x1.Idx) ⟨2, ha⟩).trans ?_
    show win1_4.index t 2 * 1 + 0 = 0
    rw [i2]

/-- The result asked for, over the names above. -/
abbrev want (c : Dev nD) : Vec Ideal S4x8192x1 .f32 := Chamfer.nearest (aX V c) (aY V c) (aP V c) (aQ V c)

/-- A write-back happens after the last column tile, when the running minimum has met every point of the first cloud:
    what it writes is its block of the result asked for. -/
theorem flushed_eq (c : Dev nD) (t : Fin cfg1.N) (hf : (cfg1.win 4).flush t = true) :
    (dat1 (F := Ideal) V c).flushed 4 t = ((cfg1.win 4).blk t).view.read (Elt Ideal) (want V c) := by
  have h7 : t.val % 8 = 7 := (flush1_4 t).mp hf
  show (cfg1.win 4).cut (grid1.coords t) ((dat1 V c).after 4 t) = _
  rw [after1_4]
  funext y
  obtain ⟨r, rfl⟩ : ∃ r : Fin 1024, y = (ix3 0 r 0 : S1x1024x1.Idx) :=
    ⟨(y : S1x1024x1.Idx) 1, by
      funext a
      match a with
      | ⟨0, _⟩ => exact Subsingleton.elim (α := Fin 1) _ _
      | ⟨1, _⟩ => rfl
      | ⟨2, _⟩ => exact Subsingleton.elim (α := Fin 1) _ _⟩
  refine (outsAt_eq V c t.val t.isLt r).trans ?_
  rw [View.read_apply]
  show _ = want V c (((cfg1.win 4).blk t).view.emb (ix3 0 r 0 : S1x1024x1.Idx))
  rw [emb4 t r]
  show Chamfer.prefixMin _ ((t.val % 8 + 1) * 1024) = Chamfer.nearest _ _ _ _ (ix3 _ _ 0)
  rw [Chamfer.nearest_apply, show (t.val % 8 + 1) * 1024 = 8192 by omega, Chamfer.prefixMin_full]

/-! ## The write-backs cover the result -/

/-- The grid point after which the block holding point `n` of batch `b` is written back: the last column tile of
    that point's row tile. -/
def lastPt (b : Fin 4) (n : Fin 8192) : Fin cfg1.N :=
  ⟨64 * b.val + 8 * (n.val / 1024) + 7, by
    rw [show cfg1.N = 256 from N_1]; have := b.isLt; have := n.isLt; omega⟩

/-- Every index of the result lies in a block that is written back. -/
theorem cover4 (i : S4x8192x1.Idx) :
    ∃ t : Fin cfg1.N, (cfg1.win 4).flush t = true ∧ i ∈ ((cfg1.win 4).blk t).view.set := by
  have hb : (i 0 : Nat) < 4 := (i 0).isLt
  have hn : (i 1 : Nat) < 8192 := (i 1).isLt
  have hz : (i 2 : Nat) < 1 := (i 2).isLt
  have v : (lastPt (i 0) (i 1)).val = 64 * (i 0).val + 8 * ((i 1).val / 1024) + 7 := rfl
  refine ⟨lastPt (i 0) (i 1), (flush1_4 _).mpr (by rw [v]; omega), ?_⟩
  obtain ⟨i0, i1, i2⟩ := idx4 (lastPt (i 0) (i 1))
  show i ∈ ((View.whole main_v14).slice (win1_4.rect (lastPt (i 0) (i 1)))).set
  rw [View.set_slice_whole, Rect.mem_set_unit]
  intro a
  match a with
  | ⟨0, _⟩ =>
    show win1_4.index (lastPt (i 0) (i 1)) 0 * 1 ≤ (i 0 : Nat)
      ∧ (i 0 : Nat) < win1_4.index (lastPt (i 0) (i 1)) 0 * 1 + 1
    rw [i0, v]; omega
  | ⟨1, _⟩ =>
    show win1_4.index (lastPt (i 0) (i 1)) 1 * 1024 ≤ (i 1 : Nat)
      ∧ (i 1 : Nat) < win1_4.index (lastPt (i 0) (i 1)) 1 * 1024 + 1024
    rw [i1, v]; omega
  | ⟨2, _⟩ =>
    show win1_4.index (lastPt (i 0) (i 1)) 2 * 1 ≤ (i 2 : Nat)
      ∧ (i 2 : Nat) < win1_4.index (lastPt (i 0) (i 1)) 2 * 1 + 1
    rw [i2]; omega

/-- The call's result array after its last grid step, from the contents `V` it is entered with. -/
theorem final1 (c : Dev nD) :
    (dat1 (F := Ideal) V c).arrAt 4 cfg1.N
      = Chamfer.nearest (V c main_arg1) (V c main_arg0) (V c main_v10) (V c main_v13) :=
  (dat1 (F := Ideal) V c).arrAt_eq_of_cover 4 (want V c) (flushed_eq V c) cover4

end Cert.KernelIdeal.Region1

end
-- ==== Proof.KernelValue.lean ====
/-
  The program's result as a function of its two arguments: each call's result array is `nearest` of what it is entered
  with, the host lines before a call compute the squared norms, and the host lines after the calls take the two means.
-/
import proofs.«141910_j40939628265652_1_alg».proof.Proof.KernelRun
import proofs.«141910_j40939628265652_1_alg».proof.Proof.Region0
import proofs.«141910_j40939628265652_1_alg».proof.Proof.Region1
import proofs.«141910_j40939628265652_1_alg».proof.Proof.ChamferSpec
import Idealize.ShloMosaic.Lib.Pipeline.Value
import Idealize.ShloMosaic.Lib.StableHlo.Run
import Idealize.ShloMosaic.Lib.ValueIdx

noncomputable section

namespace Cert.KernelIdeal.Value

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ) (ρ : Dev nD → PrngReg)

/-- The squared norm of every point of a cloud. -/
abbrev sq (x : Vec F S4x8192x3 .f32) : Vec F S4x8192 .f32 :=
  Host.reduceAdd (mulf x x) (constant S_ .f32 0x00000000#32) reducesTo_S4x8192x3_S4x8192_d2 h_S_
/-- One number per point laid out as a column, and as a row. -/
abbrev asCol (s : Vec F S4x8192 .f32) : Vec F S4x8192x1 .f32 := broadcastInDim S4x8192x1 ![0, 1] bcast_S4x8192_S4x8192x1_0_1 s
abbrev asRow (s : Vec F S4x8192 .f32) : Vec F S4x1x8192 .f32 := broadcastInDim S4x1x8192 ![0, 2] bcast_S4x8192_S4x1x8192_0_2 s
/-- A column read as one number per point. -/
abbrev unCol (o : Vec F S4x8192x1 .f32) : Vec F S4x8192 .f32 := shapeCast S4x8192 o shapeCasts_S4x8192x1_S4x8192
/-- The mean over all 32768 points. -/
abbrev mean (r : Vec F S4x8192 .f32) : Vec F S_ .f32 :=
  Host.divf (Host.reduceAdd r (constant S_ .f32 0x00000000#32) reducesTo_S4x8192_S_d0_1 h_S_) (constant S_ .f32 0x47000000#32)

/-! ## What the first call is entered with -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_v2 (c : Dev nD) : (V1 m ρ c main_v2 : Vec F S4x8192x1 .f32) = asCol (sq (m ((c : Thread nD τ).loc main_arg0))) := by
  show StableHlo.after hostOps0 (W0 m ρ c) (Proc.devRef .tc main_v2) = _
  after_results
theorem V1_v5 (c : Dev nD) : (V1 m ρ c main_v5 : Vec F S4x1x8192 .f32) = asRow (sq (m ((c : Thread nD τ).loc main_arg1))) := by
  show StableHlo.after hostOps0 (W0 m ρ c) (Proc.devRef .tc main_v5) = _
  after_results

/-! ## Between the calls: the first call leaves its arguments as they were and its result in `main_v6` -/

theorem W2_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (V1_arg0 m ρ c))
theorem W2_arg1 (c : Dev nD) : W2 m ρ c (Proc.devRef .tc main_arg1) = m ((c : Thread nD τ).loc main_arg1) :=
  (W2_arr m ρ c 1).trans ((((dat0 (V1 m ρ) c).arrAt_in 1 rfl _).trans (A_eq0 (V1 m ρ) c 1)).trans (V1_arg1 m ρ c))
theorem W2_v6 (c : Dev nD) : W2 m ρ c (Proc.devRef .tc main_v6) = (dat0 (V1 m ρ) c).arrAt 4 cfg0.N := W2_arr m ρ c 4

/-! ## What the second call is entered with -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c
theorem V3_arg1 (c : Dev nD) : V3 m ρ c main_arg1 = m ((c : Thread nD τ).loc main_arg1) := by
  show StableHlo.after hostOps1 (W2 m ρ c) (Proc.devRef .tc main_arg1) = _
  after_results
  exact W2_arg1 m ρ c
theorem V3_v10 (c : Dev nD) : (V3 m ρ c main_v10 : Vec F S4x8192x1 .f32) = asCol (sq (m ((c : Thread nD τ).loc main_arg1))) := by
  show StableHlo.after hostOps1 (W2 m ρ c) (Proc.devRef .tc main_v10) = _
  after_results
  rw [W2_arg1 m ρ c]
theorem V3_v13 (c : Dev nD) : (V3 m ρ c main_v13 : Vec F S4x1x8192 .f32) = asRow (sq (m ((c : Thread nD τ).loc main_arg0))) := by
  show StableHlo.after hostOps1 (W2 m ρ c) (Proc.devRef .tc main_v13) = _
  after_results
  rw [W2_arg0 m ρ c]
theorem W3_v7 (c : Dev nD) : (W3 m ρ c (Proc.devRef .tc main_v7) : Vec F S4x8192 .f32) = unCol ((dat0 (V1 m ρ) c).arrAt 4 cfg0.N) := by
  show StableHlo.after hostOps1 (W2 m ρ c) (Proc.devRef .tc main_v7) = _
  after_results
  rw [W2_v6 m ρ c]
  rfl

/-! ## After the calls -/

theorem W4_v7 (c : Dev nD) : (W4 m ρ c (Proc.devRef .tc main_v7) : Vec F S4x8192 .f32) = unCol ((dat0 (V1 m ρ) c).arrAt 4 cfg0.N) :=
  (W4_of_ne m ρ c main_v7 (by decide)).trans (W3_v7 m ρ c)
theorem W4_v14 (c : Dev nD) : W4 m ρ c (Proc.devRef .tc main_v14) = (dat1 (V3 m ρ) c).arrAt 4 cfg1.N := W4_arr m ρ c 4

/-- The result: the sum of the two means. -/
theorem W5_v20 (c : Dev nD) : (W5 m ρ c (Proc.devRef .tc main_v20) : Vec F S_ .f32)
    = addf (mean (unCol ((dat0 (V1 m ρ) c).arrAt 4 cfg0.N))) (mean (unCol ((dat1 (V3 m ρ) c).arrAt 4 cfg1.N))) := by
  show StableHlo.after hostOps2 (W4 m ρ c) (Proc.devRef .tc main_v20) = _
  after_results
  rw [W4_v7 m ρ c, W4_v14 m ρ c]
  rfl

end Cert.KernelIdeal.Value

end
-- ==== Proof.KernelResult.lean ====
/-
  The program's run with its result as ONE function of the two arguments: the sum of the two means of `nearest`,
  once as it stands and once with the clouds exchanged.
-/
import proofs.«141910_j40939628265652_1_alg».proof.Proof.KernelValue

noncomputable section

namespace Cert.KernelIdeal.Value

open Cert.KernelIdeal Cert.KernelIdeal.Gen Idealize.ShloMosaic Idealize.ShloMosaic.TcCoe Idealize.SL.Sem
open Idealize.ShloMosaic.ValueIdx Idealize.ShloMosaic.StableHlo

/-- Dropping the unit axis of a column keeps the row-major position: entry `(b, n)` is entry `(b, n, 0)`. -/
theorem unCol_eq_flat (o : Vec Ideal S4x8192x1 .f32) : unCol o = Chamfer.flat o := by
  funext j
  obtain ⟨b, n, rfl⟩ : ∃ (b : Fin 4) (n : Fin 8192), j = ix2 b n := ⟨j 0, j 1, eq_ix2 j⟩
  rw [Chamfer.flat_apply]
  refine shapeCast_apply o shapeCasts_S4x8192x1_S4x8192 (ix2 b n) (ix3 b n 0) ?_
  rw [Shape.rowMajor_val_three, Shape.rowMajor_val_two]
  show (b.val * 8192 + n.val) * 1 + 0 = b.val * 8192 + n.val
  omega

/-- The result: the mean over the first cloud of the distance to the nearest point of the second, plus the mean over the
    second cloud of the distance to the nearest point of the first. -/
def result (x0 x1 : FVec Ideal S4x8192x3 .f32) : FVec Ideal S_ .f32 :=
  addf (F := Ideal) (mean (F := Ideal) (Chamfer.flat (Chamfer.nearest x0 x1 (asCol (F := Ideal) (sq (F := Ideal) x0)) (asRow (F := Ideal) (sq (F := Ideal) x1)))))
    (mean (F := Ideal) (Chamfer.flat (Chamfer.nearest x1 x0 (asCol (F := Ideal) (sq (F := Ideal) x1)) (asRow (F := Ideal) (sq (F := Ideal) x0)))))

variable (m : (ℓ : Loc nD τ sig) → Buf (Elt Ideal) ℓ) (ρ : Dev nD → PrngReg)

theorem W5_result (c : Dev nD) :
    (W5 m ρ c (Proc.devRef .tc main_v20) : Vec Ideal S_ .f32)
      = result (m ((c : Thread nD τ).loc main_arg0)) (m ((c : Thread nD τ).loc main_arg1)) := by
  rw [W5_v20 m ρ c, Region0.final0 (V1 m ρ) c, Region1.final1 (V3 m ρ) c, V1_arg0 m ρ c, V1_arg1 m ρ c, V1_v2 m ρ c,
    V1_v5 m ρ c, V3_arg0 m ρ c, V3_arg1 m ρ c, V3_v10 m ρ c, V3_v13 m ρ c, unCol_eq_flat, unCol_eq_flat]
  rfl

/-- Every weakly fair execution ends, nothing faulting, with the result buffer at `result` of the arguments and the
    arguments as launched. -/
theorem run : θ_run defs (onTc (τ := τ) (main (F := Ideal))) ⟨m, fun _ => 0, ρ⟩ (fun r => ∀ c : Dev nD,
      r.2.mem ((c.tc : Thread nD τ).loc main_v20) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (W5_result m ρ c), (h c).2⟩) (Cert.KernelIdeal.Run.run_result m ρ)

end Cert.KernelIdeal.Value

end
-- ==== Proof.Bridge.lean ====
/-
  The reference's result is the kernel's: both are the sum of the two means of `nearest`, the reference's two minima
  read as `nearest` and `nearest` with the clouds exchanged.
-/
import proofs.«141910_j40939628265652_1_alg».proof.Proof.RefValue
import proofs.«141910_j40939628265652_1_alg».proof.Proof.KernelResult

noncomputable section

namespace Cert.Bridge

open Idealize.ShloMosaic

/-- The reference's last stage, as a function of the two arguments, is the kernel's result. -/
theorem result_eq (x0 x1 : (⟨Cert.ReferenceIdeal.S4x8192x3, .f32⟩ : BufTy).Contents (Elt Ideal)) :
    Cert.ReferenceIdeal.Read.val_main_v22 (F := Ideal) x0 x1 = Cert.KernelIdeal.Value.result x0 x1 := by
  unfold Cert.ReferenceIdeal.Read.val_main_v22 Cert.ReferenceIdeal.Read.val_main_v19 Cert.ReferenceIdeal.Read.val_main_v21
    Cert.ReferenceIdeal.Read.val_main_v18 Cert.ReferenceIdeal.Read.val_main_v20
  rw [Cert.ReferenceIdeal.RefValue.rowMin_eq, Cert.ReferenceIdeal.RefValue.colMin_eq]
  rfl

end Cert.Bridge

end
-- ==== Proof.lean ====
/-
  A two-sided nearest-neighbour distance between two clouds of 8192 points in three coordinates, four batches:
  the mean over the first cloud of the distance to the nearest point of the second, plus the mean over the second cloud
  of the distance to the nearest point of the first, the distance taken as
  `sqrt (max ((|p|^2 + |g|^2) - 2 * <p, g>) 0)`.

  The kernel never forms the 8192 by 8192 array of distances: each of its two calls walks 1024 by 1024 tiles, keeps for
  every row the least distance seen so far (started from +infinity at the first column tile, written back after the
  last), and the second call is the first with the two clouds exchanged. The reference forms the array once and takes
  its least value along each of the two axes.

  Over the extended reals the two agree. A running minimum taken tile by tile is the minimum (a fold of `min` from the
  top element is characterised by its lower bounds, whatever the order and grouping); a tile's matrix product into the
  zero block is the same sum over the three coordinates as the reference's batched product; and exchanging the clouds
  changes `|p|^2 + |g|^2` and `<p, g>` only by commutativity of `+` and `*`, which hold on the extended reals without
  any finiteness, so the precondition is never opened. The two means are the same host operations on both sides and
  are carried as one function.

  The three frames: the kernel's two are its generated frame certificate, read at the word level and at the extended
  reals; the reference's is its generated run with the result dropped. The idealization rewrote nothing, so
  `preserves` is `True`.
-/
import proofs.«141910_j40939628265652_1_alg».proof.Defs
import proofs.«141910_j40939628265652_1_alg».proof.Proof.Gen.Kernel
import proofs.«141910_j40939628265652_1_alg».proof.Proof.Gen.Kernel.Frame
import proofs.«141910_j40939628265652_1_alg».proof.Proof.Gen.KernelIdeal
import proofs.«141910_j40939628265652_1_alg».proof.Proof.Gen.KernelIdeal.Frame
import proofs.«141910_j40939628265652_1_alg».proof.Proof.Gen.ReferenceIdeal
import proofs.«141910_j40939628265652_1_alg».proof.Proof.Gen.Pre_finite_inputs
import proofs.«141910_j40939628265652_1_alg».proof.Proof.Gen.ReferenceIdeal.Run
import proofs.«141910_j40939628265652_1_alg».proof.Proof.Gen.ReferenceIdeal.Read
import proofs.«141910_j40939628265652_1_alg».proof.Proof.Bridge
import Idealize.ShloMosaic.Adequacy
import Idealize.ShloMosaic.Init

noncomputable section

namespace Cert.Proof

open Idealize.ShloMosaic Idealize.SL.Sem

namespace ChamferClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the two clouds, end with the same number: the kernel's result buffer
    holds `result` of its arguments, the reference's its last stage, and the two are one function. -/
theorem algebraic : Cert.algebraic_KernelIdeal_ReferenceIdeal := by
  intro m ρ m' ρ' _ hagree
  refine ⟨fun c => Cert.KernelIdeal.Value.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v22_eq]
  exact Cert.Bridge.result_eq _ _

end ChamferClaims

theorem claim : Cert.Claim :=
  ⟨Cert.Kernel.Gen.facts, Cert.KernelIdeal.Gen.facts, Cert.ReferenceIdeal.Gen.facts, Cert.Pre_finite_inputs.Gen.facts,
    ChamferClaims.frame_k, ChamferClaims.frame_ki, ChamferClaims.frame_ri, ChamferClaims.preserves, ChamferClaims.algebraic⟩

end Cert.Proof

end
